-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) (main_arg1 : FVec F S1x2048x1024 .f32) (main_arg2 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S1x2048x1024 .f32 := Host.absf main_arg2
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  let main_c_3 : IVec S_ 1 := constantI S_ 1 1#1
  let main_v12 : IVec S_ 1 := (fun x v => Host.reduce IntOp.andi x v reducesTo_S1x2048x1024_S_d0_1_2 h_S_) main_v11 main_c_3
  let main_v13 : IVec S_ 1 := andi main_v8 main_v12
  main_v13
-- ==== Kernel.lean ====
abbrev S1x2048x1024 : Shape := ⟨3, ![1, 2048, 1024]⟩
abbrev S1x2048x128 : Shape := ⟨3, ![1, 2048, 128]⟩
abbrev S1x2048x64 : Shape := ⟨3, ![1, 2048, 64]⟩
abbrev S2048x64 : Shape := ⟨2, ![2048, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x128_S1x2048x64_0_0_0 : ∀ a, (![0, 0, 0] : Fin 3 → Nat) a + S1x2048x64.size a ≤ S1x2048x128.size a
  h_S1x2048x64 : 0 < S1x2048x64.numel
  shapeCasts_S1x2048x64_S2048x64 : S1x2048x64.ShapeCasts S2048x64
  slices_S2048x64_o0_0_S256x64 : S2048x64.Slices ![0, 0] S256x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S2048x64_o256_0_S256x64 : S2048x64.Slices ![256, 0] S256x64
  slices_S2048x64_o512_0_S256x64 : S2048x64.Slices ![512, 0] S256x64
  slices_S2048x64_o768_0_S256x64 : S2048x64.Slices ![768, 0] S256x64
  slices_S2048x64_o1024_0_S256x64 : S2048x64.Slices ![1024, 0] S256x64
  slices_S2048x64_o1280_0_S256x64 : S2048x64.Slices ![1280, 0] S256x64
  slices_S2048x64_o1536_0_S256x64 : S2048x64.Slices ![1536, 0] S256x64
  slices_S2048x64_o1792_0_S256x64 : S2048x64.Slices ![1792, 0] S256x64
  concatenates_S256x64_S256x64_S256x64_S256x64_S256x64_S256x64_S256x64_S256x64_S2048x64_d0 : Shape.Concatenates [S256x64, S256x64, S256x64, S256x64, S256x64, S256x64, S256x64, S256x64] S2048x64 0
  inb_S1x2048x128_S1x2048x64_0_0_64 : ∀ a, (![0, 0, 64] : Fin 3 → Nat) a + S1x2048x64.size a ≤ S1x2048x128.size a
  concatenates_S2048x64_S2048x64_S2048x128_d1 : Shape.Concatenates [S2048x64, S2048x64] S2048x128 1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S1x2048x1024.size a
  hwx0_0 : ∀ i : grid0.Coords, EltTy.bits .f32 = 32 ∨ (Rect.block (s := S1x2048x1024) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S1x2048x1024.size a
  hwx0_1 : ∀ i : grid0.Coords, EltTy.bits .f32 = 32 ∨ (Rect.block (s := S1x2048x1024) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S1x2048x1024.size a
  hwx0_2 : ∀ i : grid0.Coords, EltTy.bits .f32 = 32 ∨ (Rect.block (s := S1x2048x1024) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S1x2048x1024.size a
  hwx0_3 : ∀ i : grid0.Coords, EltTy.bits .f32 = 32 ∨ (Rect.block (s := S1x2048x1024) S1x2048x128.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x2048x1024 : Shape := ⟨3, ![1, 2048, 1024]⟩
abbrev S1x2048x16x64 : Shape := ⟨4, ![1, 2048, 16, 64]⟩
abbrev S1x16x2048x64 : Shape := ⟨4, ![1, 16, 2048, 64]⟩
abbrev S_ : Shape := ⟨0, ![]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x16x64, .f32⟩
  | .hbm, ⟨4, _⟩ => ⟨S1x16x2048x64, .f32⟩
  | .hbm, ⟨5, _⟩ => ⟨S1x2048x16x64, .f32⟩
  | .hbm, ⟨6, _⟩ => ⟨S1x16x2048x64, .f32⟩
  | .hbm, ⟨7, _⟩ => ⟨S1x2048x16x64, .f32⟩
  | .hbm, ⟨8, _⟩ => ⟨S1x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S_, .f32⟩
  | .hbm, ⟨19, _⟩ => ⟨S1x16x2048, .f32⟩
  | .hbm, ⟨20, _⟩ => ⟨S1x16x2048, .f32⟩
  | .hbm, ⟨21, _⟩ => ⟨S1x16x2048x1, .f32⟩
  | .hbm, ⟨22, _⟩ => ⟨S1x16x2048x2048, .f32⟩
  | .hbm, ⟨23, _⟩ => ⟨S1x16x2048x2048, .f32⟩
  | .hbm, ⟨24, _⟩ => ⟨S1x16x2048x2048, .f32⟩
  | .hbm, ⟨25, _⟩ => ⟨S_, .f32⟩
  | .hbm, ⟨26, _⟩ => ⟨S1x16x2048, .f32⟩
  | .hbm, ⟨27, _⟩ => ⟨S1x16x2048x1, .f32⟩
  | .hbm, ⟨28, _⟩ => ⟨S1x16x2048x2048, .f32⟩
  | .hbm, ⟨29, _⟩ => ⟨S1x16x2048x2048, .f32⟩
  | .hbm, ⟨30, _⟩ => ⟨S1x16x2048x64, .f32⟩
  | .hbm, ⟨31, _⟩ => ⟨S1x2048x16x64, .f32⟩
  | .hbm, ⟨32, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  h_S_ : 0 < S_.numel
  bcast_S_S1x16x2048 : S_.BroadcastsInDim S1x16x2048 (![] : Fin 0 → Fin S1x16x2048.rank)
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  transposes_S1x16x2048x64_S1x2048x16x64_0_2_1_3 : S1x16x2048x64.Transposes [0, 2, 1, 3] S1x2048x16x64
  shapeCasts_S1x2048x16x64_S1x2048x1024 : S1x2048x16x64.ShapeCasts S1x2048x1024
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.Chunk.lean ====
/-
  One head of the attention block, as the kernel's body computes it: the query rows are processed 256 at a time.
  For one such chunk the scores against all 2048 keys are a matrix product, each row is shifted by its maximum and
  exponentiated, the weighted sum with the values is a second matrix product, and the result is divided by the row
  sums.  The definitions below spell these steps over arbitrary float values, so that the body's computed values are
  these terms by unfolding.
-/
import proofs.«151708_g44976897524301_cont_8to1_c_832_2_alg».proof.Proof.Gen.KernelIdeal.Skeleton

noncomputable section

namespace Cert.KernelIdeal.Attn

open Idealize.ShloMosaic Cert.KernelIdeal Cert.KernelIdeal.Gen

variable {F : FTy → Type} [FloatOps F]

/-- Scores of the 256 query rows starting at row `o` against all keys: `Q[o .. o+256) · Kᵀ` into a zero accumulator. -/
def chunkScore (o : ℕ) (ho : S2048x64.Slices ![o, 0] S256x64) (qs kk : FVec F S2048x64 .f32) : FVec F S256x2048 .f32 :=
  matmul dot_S256x64_S2048x64_S256x2048_1_1_0_0_n_n (some .fp32) (extractStridedSlice S256x64 ![o, 0] qs ho) kk
    (constant S256x2048 .f32 0x00000000#32)

/-- Row maxima of a score matrix, from `-∞`. -/
def chunkMax (sc : FVec F S256x2048 .f32) : FVec F S256 .f32 :=
  multiReduction .maximumf [1] S256 sc 0xFF800000#32 reduces_S256x2048_S256 (.inl rfl) rfl

/-- `exp (score − row maximum)`. -/
def chunkExp (sc : FVec F S256x2048 .f32) (mx : FVec F S256 .f32) : FVec F S256x2048 .f32 :=
  exp (subf sc (broadcastTo S256x2048 (shapeCast S256x1 mx shapeCasts_S256_S256x1) broadcasts_S256x1_S256x2048))

/-- The weighted sum `E · V` divided by the row sums of `E`. -/
def chunkFin (e : FVec F S256x2048 .f32) (vv : FVec F S2048x64 .f32) : FVec F S256x64 .f32 :=
  divf (matmul dot_S256x2048_S2048x64_S256x64_1_0_0_1_n_n (some .fp32) e vv (constant S256x64 .f32 0x00000000#32))
    (broadcastTo S256x64
      (shapeCast S256x1 (multiReduction .add [1] S256 e 0x00000000#32 reduces_S256x2048_S256 (.inl rfl) rfl) shapeCasts_S256_S256x1)
      broadcasts_S256x1_S256x64)

/-- One chunk of one head: 256 output rows. -/
def chunkOut (o : ℕ) (ho : S2048x64.Slices ![o, 0] S256x64) (qs kk vv : FVec F S2048x64 .f32) : FVec F S256x64 .f32 :=
  chunkFin (chunkExp (chunkScore o ho qs kk) (chunkMax (chunkScore o ho qs kk))) vv

/-- One head: its eight chunks stacked along the rows. -/
def headOut (qs kk vv : FVec F S2048x64 .f32) : FVec F S2048x64 .f32 :=
  concatenate S2048x64 0
    [⟨S256x64, chunkOut 0 slices_S2048x64_o0_0_S256x64 qs kk vv⟩, ⟨S256x64, chunkOut 256 slices_S2048x64_o256_0_S256x64 qs kk vv⟩,
     ⟨S256x64, chunkOut 512 slices_S2048x64_o512_0_S256x64 qs kk vv⟩, ⟨S256x64, chunkOut 768 slices_S2048x64_o768_0_S256x64 qs kk vv⟩,
     ⟨S256x64, chunkOut 1024 slices_S2048x64_o1024_0_S256x64 qs kk vv⟩, ⟨S256x64, chunkOut 1280 slices_S2048x64_o1280_0_S256x64 qs kk vv⟩,
     ⟨S256x64, chunkOut 1536 slices_S2048x64_o1536_0_S256x64 qs kk vv⟩, ⟨S256x64, chunkOut 1792 slices_S2048x64_o1792_0_S256x64 qs kk vv⟩]
    concatenates_S256x64_S256x64_S256x64_S256x64_S256x64_S256x64_S256x64_S256x64_S2048x64_d0

/-- The two heads of a block side by side along the columns. -/
def pairOut (qs0 kk0 vv0 qs1 kk1 vv1 : FVec F S2048x64 .f32) : FVec F S2048x128 .f32 :=
  concatenate S2048x128 1 [⟨S2048x64, headOut qs0 kk0 vv0⟩, ⟨S2048x64, headOut qs1 kk1 vv1⟩] concatenates_S2048x64_S2048x64_S2048x128_d1

/-- The body's last computed value, over the six half-blocks it loads, is the two heads side by side: every
    intermediate value of the body unfolds to the steps above. -/
theorem payload_eq (P0 P1 P2 P3 P4 P5 : Vec F S1x2048x64 .f32) :
    k0_pay26 (k0_pay14 (k0_pay2 P0) (k0_pay3 P1) (k0_pay4 P2) (k0_pay5 P0 P1 P2) (k0_pay6 P0 P1 P2) (k0_pay8 (k0_pay4 P2) (k0_pay7 P0 P1)) (k0_pay9 (k0_pay2 P0) (k0_pay3 P1) (k0_pay4 P2)) (k0_pay10 (k0_pay2 P0) (k0_pay3 P1) (k0_pay4 P2)) (k0_pay11 (k0_pay2 P0) (k0_pay3 P1) (k0_pay4 P2)) (k0_pay12 (k0_pay2 P0) (k0_pay3 P1)) (k0_pay13 (k0_pay2 P0) (k0_pay3 P1))) (k0_pay15 P3) (k0_pay16 P4) (k0_pay17 P5) (k0_pay21 (k0_pay19 P3 P4) (k0_pay20 P3 P4 P5)) (k0_pay22 (k0_pay15 P3) (k0_pay16 P4) (k0_pay17 P5)) (k0_pay23 (k0_pay15 P3) (k0_pay16 P4) (k0_pay17 P5)) (k0_pay24 (k0_pay15 P3) (k0_pay16 P4) (k0_pay17 P5)) (k0_pay25 (k0_pay15 P3) (k0_pay16 P4))
      = pairOut (k0_pay2 P0) (k0_pay3 P1) (k0_pay4 P2) (k0_pay15 P3) (k0_pay16 P4) (k0_pay17 P5) := rfl

end Cert.KernelIdeal.Attn

end
-- ==== Proof.AttnDefs.lean ====
/-
  Scaled dot-product attention, one output entry at a time, over the extended reals.

  For a query row `s` and an output column `j` (column `j` lies in the head whose 64 columns start at
  `j / 64 * 64`), the entry is the softmax-weighted average of column `j` of `v` over the 2048 key rows, the
  weights coming from the scores of row `s` against every key row inside that head.  Two orders of the same
  arithmetic are stated: the one that scales the query before the dot product and divides the weighted sum by
  the normaliser afterwards (`avgK`, `scoreK`, `GK`), and the one that scales the dot product and normalises
  each weight before the weighted sum (`avgR`, `scoreR`, `GR`).
-/
import Idealize.ShloMosaic.PureOps.Ideal
import Idealize.ShloMosaic.Lib.ValueIdx

noncomputable section

namespace Cert.Attn

open Idealize.ShloMosaic Idealize.ShloMosaic.ValueIdx

/-- The maximum of the scores, as a fold of `max` from `-∞`. -/
def smax {T : ℕ} (S : Fin T → EReal) : EReal := (Finset.univ : Finset (Fin T)).fold max (⊥ : EReal) S

/-- Softmax average: the weighted sum `Σ e_u · V_u` divided once by `Σ e_u`, with `e_u = exp (S_u − max S)`. -/
def avgK {T : ℕ} (S V : Fin T → EReal) : EReal :=
  Ideal.div (∑ u : Fin T, Ideal.exp (S u - smax S) * V u) (∑ u : Fin T, Ideal.exp (S u - smax S))

/-- Softmax average: every weight `e_u / (0 + Σ e_w)` formed first, then `Σ weight_u · V_u`; the maximum is taken
    once more against `-∞`. -/
def avgR {T : ℕ} (S V : Fin T → EReal) : EReal :=
  ∑ u : Fin T, Ideal.div (Ideal.exp (S u - max ⊥ (smax S))) (0 + ∑ w : Fin T, Ideal.exp (S w - max ⊥ (smax S))) * V u

/-- The arrays' shape: one batch, 2048 rows, 16 heads of 64 columns side by side. -/
abbrev A3 : Shape := ⟨3, ![1, 2048, 1024]⟩

/-- Column `dd` of the head that column `j` belongs to. -/
def hcol (j : Fin 1024) (dd : Fin 64) : Fin 1024 :=
  ⟨j.val / 64 * 64 + dd.val, by have := j.isLt; have := dd.isLt; omega⟩

/-- Score of query row `s` against key row `u` in the head of column `j`: the query entries scaled by the
    constant `0x3E000000` (one eighth) before the products are summed. -/
def scoreK (q k : A3.Idx → EReal) (s : Fin 2048) (j : Fin 1024) (u : Fin 2048) : EReal :=
  ∑ dd : Fin 64, (q (ix3 (0 : Fin 1) s (hcol j dd)) * Ideal.ofBits .f32 0x3E000000#32) * k (ix3 (0 : Fin 1) u (hcol j dd))

/-- The same score with the sum of products scaled afterwards by `1 / sqrt 64`. -/
def scoreR (q k : A3.Idx → EReal) (s : Fin 2048) (j : Fin 1024) (u : Fin 2048) : EReal :=
  (∑ dd : Fin 64, q (ix3 (0 : Fin 1) s (hcol j dd)) * k (ix3 (0 : Fin 1) u (hcol j dd)))
    * Ideal.div (Ideal.ofBits .f32 0x3F800000#32) (Ideal.sqrt (Ideal.ofBits .f32 0x42800000#32))

/-- The attention output, entry by entry, in the first order of operations. -/
def GK (q k v : A3.Idx → EReal) : A3.Idx → EReal := fun i =>
  avgK (scoreK q k (i 1) (i 2)) (fun u => v (ix3 (0 : Fin 1) u (i 2)))

/-- The attention output, entry by entry, in the second order of operations. -/
def GR (q k v : A3.Idx → EReal) : A3.Idx → EReal := fun i =>
  avgR (scoreR q k (i 1) (i 2)) (fun u => v (ix3 (0 : Fin 1) u (i 2)))

/-- A block of two heads: one batch, 2048 rows, 128 columns. -/
abbrev B3 : Shape := ⟨3, ![1, 2048, 128]⟩

/-- Column `dd` of the head, inside a block of two heads, that block column `jj` belongs to. -/
def bcol (jj : Fin 128) (dd : Fin 64) : Fin 128 :=
  ⟨jj.val / 64 * 64 + dd.val, by have := jj.isLt; have := dd.isLt; omega⟩

/-- The attention output restricted to one block of two heads, from that block of `q`, `k` and `v`, in the first
    order of operations: the heads do not mix, so a block of the output depends on the same block of the inputs. -/
def blockK (x0 x1 x2 : B3.Idx → EReal) : B3.Idx → EReal := fun y =>
  avgK (fun u : Fin 2048 => ∑ dd : Fin 64,
      (x0 (ix3 (0 : Fin 1) (y 1) (bcol (y 2) dd)) * Ideal.ofBits .f32 0x3E000000#32) * x1 (ix3 (0 : Fin 1) u (bcol (y 2) dd)))
    (fun u : Fin 2048 => x2 (ix3 (0 : Fin 1) u (y 2)))

end Cert.Attn

end
-- ==== Proof.ChunkValue.lean ====
/-
  The kernel's per-chunk computation read at one output entry: the entry in row `r` of the chunk that starts at query
  row `o`, column `d`, is the softmax average of column `d` of the values, weighted by the scores of query row
  `o + r` against every key; and the two heads of a block, read at a column of the block, are that average taken in the
  head the column belongs to.
-/
import proofs.«151708_g44976897524301_cont_8to1_c_832_2_alg».proof.Proof.Chunk
import proofs.«151708_g44976897524301_cont_8to1_c_832_2_alg».proof.Proof.AttnDefs
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Attn

open Idealize.ShloMosaic Idealize.ShloMosaic.ValueIdx Cert.KernelIdeal Cert.KernelIdeal.Gen

/-! ## The two matrix products at an entry -/

/-- The score product's left operand is read at the output row … -/
theorem lhs_score_0 (j : S256x2048.Idx) (q : dot_S256x64_S2048x64_S256x2048_1_1_0_0_n_n.contr.Idx) :
    (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
/-- … and at the contraction position on its columns. -/
theorem lhs_score_1 (j : S256x2048.Idx) (q : dot_S256x64_S2048x64_S256x2048_1_1_0_0_n_n.contr.Idx) :
    (dot_S256x64_S2048x64_S256x2048_1_1_0_0_n_n.lhsIdx j q 1).val = (q ⟨0, by decide⟩).val :=
  dot_S256x64_S2048x64_S256x2048_1_1_0_0_n_n.lhsIdx_val_of_single rfl j q
/-- The score product's right operand is read at the row named by the output column … -/
theorem rhs_score_0 (j : S256x2048.Idx) (q : dot_S256x64_S2048x64_S256x2048_1_1_0_0_n_n.contr.Idx) :
    (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
/-- … and at the contraction position on its columns. -/
theorem rhs_score_1 (j : S256x2048.Idx) (q : dot_S256x64_S2048x64_S256x2048_1_1_0_0_n_n.contr.Idx) :
    (dot_S256x64_S2048x64_S256x2048_1_1_0_0_n_n.rhsIdx j q 1).val = (q ⟨0, by decide⟩).val :=
  dot_S256x64_S2048x64_S256x2048_1_1_0_0_n_n.rhsIdx_val_of_single rfl j q

/-- Entry `(r, u)` of `X · Kᵀ` into the zero accumulator: the dot product of row `r` of `X` with row `u` of `K`. -/
theorem score_apply (x : FVec Ideal S256x64 .f32) (kk : FVec Ideal S2048x64 .f32) (r : Fin 256) (u : Fin 2048) :
    matmul dot_S256x64_S2048x64_S256x2048_1_1_0_0_n_n (some .fp32) x kk (constant S256x2048 .f32 0x00000000#32) (ix2 r u)
      = ∑ dd : Fin 64, x (ix2 r dd) * kk (ix2 u dd) := by
  simp only [matmul]
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r u) ((contrEquiv1 dot_S256x64_S2048x64_S256x2048_1_1_0_0_n_n 64 rfl rfl).symm k) = ix2 r k := funext fun a => Fin.ext (by
    match a with
    | ⟨0, _⟩ => exact lhs_score_0 _ _
    | ⟨1, _⟩ => exact (lhs_score_1 _ _).trans hk)
  have er : dot_S256x64_S2048x64_S256x2048_1_1_0_0_n_n.rhsIdx (ix2 r u) ((contrEquiv1 dot_S256x64_S2048x64_S256x2048_1_1_0_0_n_n 64 rfl rfl).symm k) = ix2 u k := funext fun a => Fin.ext (by
    match a with
    | ⟨0, _⟩ => exact rhs_score_0 _ _
    | ⟨1, _⟩ => exact (rhs_score_1 _ _).trans hk)
  rw [el, er]

/-- The value product's left operand is read at the output row … -/
theorem lhs_val_0 (j : S256x64.Idx) (q : dot_S256x2048_S2048x64_S256x64_1_0_0_1_n_n.contr.Idx) :
    (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
/-- … and at the contraction position on its columns. -/
theorem lhs_val_1 (j : S256x64.Idx) (q : dot_S256x2048_S2048x64_S256x64_1_0_0_1_n_n.contr.Idx) :
    (dot_S256x2048_S2048x64_S256x64_1_0_0_1_n_n.lhsIdx j q 1).val = (q ⟨0, by decide⟩).val :=
  dot_S256x2048_S2048x64_S256x64_1_0_0_1_n_n.lhsIdx_val_of_single rfl j q
/-- The value product's right operand is read at the contraction position on its rows … -/
theorem rhs_val_0 (j : S256x64.Idx) (q : dot_S256x2048_S2048x64_S256x64_1_0_0_1_n_n.contr.Idx) :
    (dot_S256x2048_S2048x64_S256x64_1_0_0_1_n_n.rhsIdx j q 0).val = (q ⟨0, by decide⟩).val :=
  dot_S256x2048_S2048x64_S256x64_1_0_0_1_n_n.rhsIdx_val_of_single rfl j q
/-- … and at the output column. -/
theorem rhs_val_1 (j : S256x64.Idx) (q : dot_S256x2048_S2048x64_S256x64_1_0_0_1_n_n.contr.Idx) :
    (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Entry `(r, d)` of `E · V` into the zero accumulator: the sum over the keys of `E r u · V u d`. -/
theorem wsum_apply (e : FVec Ideal S256x2048 .f32) (vv : FVec Ideal S2048x64 .f32) (r : Fin 256) (d : Fin 64) :
    matmul dot_S256x2048_S2048x64_S256x64_1_0_0_1_n_n (some .fp32) e vv (constant S256x64 .f32 0x00000000#32) (ix2 r d)
      = ∑ u : Fin 2048, e (ix2 r u) * vv (ix2 u d) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
    match a with
    | ⟨0, _⟩ => exact lhs_val_0 _ _
    | ⟨1, _⟩ => exact (lhs_val_1 _ _).trans hk)
  have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
    match a with
    | ⟨0, _⟩ => exact (rhs_val_0 _ _).trans hk
    | ⟨1, _⟩ => exact rhs_val_1 _ _)
  rw [el, er]

/-! ## The row maximum, the exponentials and the row sum at an entry -/

/-- The word the row maximum starts from is `-∞`. -/
theorem ofBits_neg_inf : Ideal.ofBits .f32 0xFF800000#32 = (⊥ : EReal) := by simp [Ideal.ofBits, Ideal.ieee]

/-- The index of a score matrix obtained by inserting column `u` into the row index `r`. -/
theorem lift_row (r : Fin 256) (u : Fin 2048) :
    reduces_S256x2048_S256.lift (ix1 r) (u : Fin (S256x2048.size 1)) = ix2 r u :=
  funext fun a => Fin.ext (by
    match a with
    | ⟨0, _⟩ => rfl
    | ⟨1, _⟩ => rfl)

/-- Entry `r` of the row maxima: the maximum of row `r`, folded from `-∞`. -/
theorem chunkMax_apply (sc : FVec Ideal S256x2048 .f32) (r : Fin 256) :
    chunkMax (F := Ideal) sc (ix1 r) = Cert.Attn.smax (fun u : Fin 2048 => sc (ix2 r u)) := by
  unfold chunkMax
  refine (Ideal.multiReduction_maximumf_single sc 0xFF800000#32 reduces_S256x2048_S256 (.inl rfl) rfl (ix1 r)).trans ?_
  show Finset.fold max (Ideal.ofBits .f32 0xFF800000#32) (fun u : Fin 2048 => sc (reduces_S256x2048_S256.lift (ix1 r) u)) Finset.univ = _
  simp only [lift_row, ofBits_neg_inf]
  rfl

/-- Entry `r` of the row sums: the sum of row `r`. -/
theorem rowSum_apply (e : FVec Ideal S256x2048 .f32) (r : Fin 256) :
    multiReduction .add [1] S256 e 0x00000000#32 reduces_S256x2048_S256 (.inl rfl) rfl (ix1 r) = ∑ u : Fin 2048, e (ix2 r u) := by
  refine (Ideal.multiReduction_add_single e 0x00000000#32 reduces_S256x2048_S256 (.inl rfl) rfl (ix1 r)).trans ?_
  show ∑ u : Fin 2048, e (reduces_S256x2048_S256.lift (ix1 r) u) = _
  simp only [lift_row]

/-- A column of 256 values spread over the columns of a score matrix reads the value of the row. -/
theorem bcast_row_2048 (m : FVec Ideal S256 .f32) (r : Fin 256) (u : Fin 2048) :
    broadcastTo S256x2048 (shapeCast S256x1 m shapeCasts_S256_S256x1) broadcasts_S256x1_S256x2048 (ix2 r u) = m (ix1 r) := by
  refine (broadcastTo_apply _ broadcasts_S256x1_S256x2048 (ix2 r u) (ix2 r (0 : Fin 1)) (fun a => ?_)).trans ?_
  · match a with
    | ⟨0, _⟩ => rfl
    | ⟨1, _⟩ => rfl
  · refine shapeCast_apply m shapeCasts_S256_S256x1 (ix2 r (0 : Fin 1)) (ix1 r) ?_
    rw [Shape.rowMajor_val_one, Shape.rowMajor_val_two]
    show r.val = r.val * 1 + 0
    omega

/-- The same over the columns of an output chunk. -/
theorem bcast_row_64 (m : FVec Ideal S256 .f32) (r : Fin 256) (d : Fin 64) :
    broadcastTo S256x64 (shapeCast S256x1 m shapeCasts_S256_S256x1) broadcasts_S256x1_S256x64 (ix2 r d) = m (ix1 r) := by
  refine (broadcastTo_apply _ broadcasts_S256x1_S256x64 (ix2 r d) (ix2 r (0 : Fin 1)) (fun a => ?_)).trans ?_
  · match a with
    | ⟨0, _⟩ => rfl
    | ⟨1, _⟩ => rfl
  · refine shapeCast_apply m shapeCasts_S256_S256x1 (ix2 r (0 : Fin 1)) (ix1 r) ?_
    rw [Shape.rowMajor_val_one, Shape.rowMajor_val_two]
    show r.val = r.val * 1 + 0
    omega

/-! ## One chunk at an entry -/

/-- Entry `(r, u)` of the chunk's scores: query row `s = o + r` against key row `u`. -/
theorem chunkScore_apply (o : ℕ) (ho : S2048x64.Slices ![o, 0] S256x64) (qs kk : FVec Ideal S2048x64 .f32)
    (r : Fin 256) (u : Fin 2048) (s : Fin 2048) (hs : s.val = o + r.val) :
    chunkScore (F := Ideal) o ho qs kk (ix2 r u) = ∑ dd : Fin 64, qs (ix2 s dd) * kk (ix2 u dd) := by
  unfold chunkScore
  rw [score_apply]
  refine Finset.sum_congr rfl fun dd _ => ?_
  rw [extractStridedSlice_apply ![o, 0] qs ho (ix2 r dd) (ix2 s dd) (fun a => by
    match a with
    | ⟨0, _⟩ => exact hs
    | ⟨1, _⟩ => exact (Nat.zero_add _).symm)]

/-- Entry `(r, u)` of the exponentials: `exp (score − row maximum)`. -/
theorem chunkExp_apply (sc : FVec Ideal S256x2048 .f32) (mx : FVec Ideal S256 .f32) (r : Fin 256) (u : Fin 2048) :
    chunkExp (F := Ideal) sc mx (ix2 r u) = Ideal.exp (sc (ix2 r u) - mx (ix1 r)) := by
  unfold chunkExp
  show Ideal.exp (sc (ix2 r u) - broadcastTo S256x2048 (shapeCast S256x1 mx shapeCasts_S256_S256x1) broadcasts_S256x1_S256x2048 (ix2 r u)) = _
  rw [bcast_row_2048]

/-- Entry `(r, d)` of the weighted sum divided by the row sum. -/
theorem chunkFin_apply (e : FVec Ideal S256x2048 .f32) (vv : FVec Ideal S2048x64 .f32) (r : Fin 256) (d : Fin 64) :
    chunkFin (F := Ideal) e vv (ix2 r d) = Ideal.div (∑ u : Fin 2048, e (ix2 r u) * vv (ix2 u d)) (∑ u : Fin 2048, e (ix2 r u)) := by
  unfold chunkFin
  rw [divf_apply, wsum_apply, bcast_row_64, rowSum_apply]

/-- Entry `(r, d)` of the chunk of 256 query rows starting at row `o` (query row `s = o + r`). -/
theorem chunkOut_apply (o : ℕ) (ho : S2048x64.Slices ![o, 0] S256x64) (qs kk vv : FVec Ideal S2048x64 .f32)
    (r : Fin 256) (d : Fin 64) (s : Fin 2048) (hs : s.val = o + r.val) :
    chunkOut (F := Ideal) o ho qs kk vv (ix2 r d)
      = Cert.Attn.avgK (fun u : Fin 2048 => ∑ dd : Fin 64, qs (ix2 s dd) * kk (ix2 u dd)) (fun u : Fin 2048 => vv (ix2 u d)) := by
  unfold chunkOut
  rw [chunkFin_apply]
  simp only [chunkExp_apply, chunkMax_apply, chunkScore_apply o ho qs kk r _ s hs]
  rfl

/-! ## One head: the chunk that holds the row -/

/-- The eight chunks of one head, in row order. -/
def headPieces (qs kk vv : FVec Ideal S2048x64 .f32) : List ((s : Shape) × (s.Idx → Ideal .f32)) :=
  [⟨S256x64, chunkOut 0 slices_S2048x64_o0_0_S256x64 qs kk vv⟩, ⟨S256x64, chunkOut 256 slices_S2048x64_o256_0_S256x64 qs kk vv⟩,
   ⟨S256x64, chunkOut 512 slices_S2048x64_o512_0_S256x64 qs kk vv⟩, ⟨S256x64, chunkOut 768 slices_S2048x64_o768_0_S256x64 qs kk vv⟩,
   ⟨S256x64, chunkOut 1024 slices_S2048x64_o1024_0_S256x64 qs kk vv⟩, ⟨S256x64, chunkOut 1280 slices_S2048x64_o1280_0_S256x64 qs kk vv⟩,
   ⟨S256x64, chunkOut 1536 slices_S2048x64_o1536_0_S256x64 qs kk vv⟩, ⟨S256x64, chunkOut 1792 slices_S2048x64_o1792_0_S256x64 qs kk vv⟩]

/-- A head is its eight chunks stacked. -/
theorem headOut_eq (qs kk vv : FVec Ideal S2048x64 .f32) :
    headOut (F := Ideal) qs kk vv = concatenate S2048x64 0 (headPieces qs kk vv)
      concatenates_S256x64_S256x64_S256x64_S256x64_S256x64_S256x64_S256x64_S256x64_S2048x64_d0 := rfl

/-- Row `s = o + r` of the head, when piece `k` is the chunk starting at row `o` and the pieces before it hold `o` rows:
    entry `(r, d)` of that chunk. -/
theorem headOut_piece (qs kk vv : FVec Ideal S2048x64 .f32) (k : ℕ) (hk : k < (headPieces qs kk vv).length)
    (o : ℕ) (ho : S2048x64.Slices ![o, 0] S256x64)
    (hxk : (headPieces qs kk vv)[k] = ⟨S256x64, chunkOut o ho qs kk vv⟩)
    (hpre : ((((headPieces qs kk vv).take k).map (·.1)).map fun s : Shape =>
      if h : s.rank = S2048x64.rank then s.size ((0 : Fin S2048x64.rank).cast h.symm) else 0).sum = o)
    (r : Fin 256) (d : Fin 64) (s : Fin 2048) (hs : s.val = o + r.val) :
    headOut (F := Ideal) qs kk vv (ix2 s d)
      = Cert.Attn.avgK (fun u : Fin 2048 => ∑ dd : Fin 64, qs (ix2 s dd) * kk (ix2 u dd)) (fun u : Fin 2048 => vv (ix2 u d)) := by
  rw [headOut_eq]
  refine (concatenate_apply_piece (0 : Fin S2048x64.rank) (headPieces qs kk vv)
    concatenates_S256x64_S256x64_S256x64_S256x64_S256x64_S256x64_S256x64_S256x64_S2048x64_d0 (ix2 s d) k hk S256x64
    (chunkOut o ho qs kk vv) hxk rfl o hpre (ix2 r d) (fun b hb => ?_) ?_).trans (chunkOut_apply o ho qs kk vv r d s hs)
  · match b with
    | ⟨0, _⟩ => exact absurd rfl hb
    | ⟨1, _⟩ => rfl
  · exact hs.symm

/-- Entry `(s, d)` of one head. -/
theorem headOut_apply (qs kk vv : FVec Ideal S2048x64 .f32) (s : Fin 2048) (d : Fin 64) :
    headOut (F := Ideal) qs kk vv (ix2 s d)
      = Cert.Attn.avgK (fun u : Fin 2048 => ∑ dd : Fin 64, qs (ix2 s dd) * kk (ix2 u dd)) (fun u : Fin 2048 => vv (ix2 u d)) := by
  have hlt := s.isLt
  obtain ⟨c, r, hc, hr, hsr⟩ : ∃ c r : ℕ, c < 8 ∧ r < 256 ∧ s.val = 256 * c + r :=
    ⟨s.val / 256, s.val % 256, by omega, Nat.mod_lt _ (by norm_num), by omega⟩
  have hlen : ∀ k : ℕ, k < 8 → k < (headPieces qs kk vv).length := fun k h => h
  interval_cases c
  · exact headOut_piece qs kk vv 0 (hlen 0 (by decide)) 0 slices_S2048x64_o0_0_S256x64 rfl rfl ⟨r, hr⟩ d s hsr
  · exact headOut_piece qs kk vv 1 (hlen 1 (by decide)) 256 slices_S2048x64_o256_0_S256x64 rfl rfl ⟨r, hr⟩ d s hsr
  · exact headOut_piece qs kk vv 2 (hlen 2 (by decide)) 512 slices_S2048x64_o512_0_S256x64 rfl rfl ⟨r, hr⟩ d s hsr
  · exact headOut_piece qs kk vv 3 (hlen 3 (by decide)) 768 slices_S2048x64_o768_0_S256x64 rfl rfl ⟨r, hr⟩ d s hsr
  · exact headOut_piece qs kk vv 4 (hlen 4 (by decide)) 1024 slices_S2048x64_o1024_0_S256x64 rfl rfl ⟨r, hr⟩ d s hsr
  · exact headOut_piece qs kk vv 5 (hlen 5 (by decide)) 1280 slices_S2048x64_o1280_0_S256x64 rfl rfl ⟨r, hr⟩ d s hsr
  · exact headOut_piece qs kk vv 6 (hlen 6 (by decide)) 1536 slices_S2048x64_o1536_0_S256x64 rfl rfl ⟨r, hr⟩ d s hsr
  · exact headOut_piece qs kk vv 7 (hlen 7 (by decide)) 1792 slices_S2048x64_o1792_0_S256x64 rfl rfl ⟨r, hr⟩ d s hsr

/-! ## The two heads of a block side by side -/

/-- A block column below 64 lies in the first head. -/
theorem pairOut_apply_left (qs0 kk0 vv0 qs1 kk1 vv1 : FVec Ideal S2048x64 .f32) (s : Fin 2048) (jj : Fin 128) (d : Fin 64)
    (hj : jj.val = d.val) :
    pairOut (F := Ideal) qs0 kk0 vv0 qs1 kk1 vv1 (ix2 s jj)
      = Cert.Attn.avgK (fun u : Fin 2048 => ∑ dd : Fin 64, qs0 (ix2 s dd) * kk0 (ix2 u dd)) (fun u : Fin 2048 => vv0 (ix2 u d)) := by
  unfold pairOut
  refine (concatenate_pair_apply_left (1 : Fin S2048x128.rank) (headOut qs0 kk0 vv0) (headOut qs1 kk1 vv1)
    concatenates_S2048x64_S2048x64_S2048x128_d1 (ix2 s jj) rfl (ix2 s d) (fun b => ?_)).trans (headOut_apply qs0 kk0 vv0 s d)
  match b with
  | ⟨0, _⟩ => rfl
  | ⟨1, _⟩ => exact hj.symm

/-- A block column from 64 on lies in the second head. -/
theorem pairOut_apply_right (qs0 kk0 vv0 qs1 kk1 vv1 : FVec Ideal S2048x64 .f32) (s : Fin 2048) (jj : Fin 128) (d : Fin 64)
    (hj : jj.val = 64 + d.val) :
    pairOut (F := Ideal) qs0 kk0 vv0 qs1 kk1 vv1 (ix2 s jj)
      = Cert.Attn.avgK (fun u : Fin 2048 => ∑ dd : Fin 64, qs1 (ix2 s dd) * kk1 (ix2 u dd)) (fun u : Fin 2048 => vv1 (ix2 u d)) := by
  unfold pairOut
  refine (concatenate_pair_apply_right (1 : Fin S2048x128.rank) (headOut qs0 kk0 vv0) (headOut qs1 kk1 vv1)
    concatenates_S2048x64_S2048x64_S2048x128_d1 (ix2 s jj) rfl rfl (ix2 s d) (fun b hb => ?_) ?_).trans (headOut_apply qs1 kk1 vv1 s d)
  · match b with
    | ⟨0, _⟩ => rfl
    | ⟨1, _⟩ => exact absurd rfl hb
  · show d.val + 64 = jj.val
    omega

end Cert.KernelIdeal.Attn

end
-- ==== Proof.BlockValue.lean ====
/-
  What the kernel's body leaves in the output block, as one function of the three input blocks: entry `(0, s, jj)` is
  the softmax average of column `jj` of the `v` block, weighted by the scores of row `s` of the `q` block (scaled by
  one eighth) against every row of the `k` block, over the 64 columns of the head that `jj` lies in.
-/
import proofs.«151708_g44976897524301_cont_8to1_c_832_2_alg».proof.Proof.ChunkValue
import proofs.«151708_g44976897524301_cont_8to1_c_832_2_alg».proof.Proof.Gen.KernelIdeal.Value

noncomputable section

namespace Cert.KernelIdeal.Attn

open Idealize.ShloMosaic Idealize.ShloMosaic.ValueIdx Cert.KernelIdeal Cert.KernelIdeal.Gen

/-- A load through the left half of a block of two heads reads the block's column of the same number. -/
theorem ld_left (x : Vec Ideal S1x2048x128 .f32) (s : Fin 2048) (dd : Fin 64) :
    View.ld x r0_0 (ix3 (0 : Fin 1) s dd) = x (ix3 (0 : Fin 1) s (⟨dd.val, by omega⟩ : Fin 128)) := by
  show x (r0_0.idx (ix3 (0 : Fin 1) s dd)) = _
  refine congrArg x (funext fun a => ?_)
  match a with
  | ⟨0, _⟩ => exact Fin.ext (by show 0 + 1 * (0 : Fin 1).val = (0 : Fin 1).val; omega)
  | ⟨1, _⟩ => exact Fin.ext (by show 0 + 1 * s.val = s.val; omega)
  | ⟨2, _⟩ => exact Fin.ext (by show 0 + 1 * dd.val = dd.val; omega)

/-- A load through the right half reads the column 64 further on. -/
theorem ld_right (x : Vec Ideal S1x2048x128 .f32) (s : Fin 2048) (dd : Fin 64) :
    View.ld x r0_1 (ix3 (0 : Fin 1) s dd) = x (ix3 (0 : Fin 1) s (⟨64 + dd.val, by omega⟩ : Fin 128)) := by
  show x (r0_1.idx (ix3 (0 : Fin 1) s dd)) = _
  refine congrArg x (funext fun a => ?_)
  match a with
  | ⟨0, _⟩ => exact Fin.ext (by show 0 + 1 * (0 : Fin 1).val = (0 : Fin 1).val; omega)
  | ⟨1, _⟩ => exact Fin.ext (by show 0 + 1 * s.val = s.val; omega)
  | ⟨2, _⟩ => exact Fin.ext (by show 64 + 1 * dd.val = 64 + dd.val; omega)

/-- The scaled query half-block at an entry: the loaded entry times one eighth. -/
theorem pay2_apply (P : Vec Ideal S1x2048x64 .f32) (s : Fin 2048) (dd : Fin 64) :
    k0_pay2 (F := Ideal) P (ix2 s dd) = P (ix3 (0 : Fin 1) s dd) * Ideal.ofBits .f32 0x3E000000#32 := by
  show (shapeCast S2048x64 P shapeCasts_S1x2048x64_S2048x64) (ix2 s dd) * _ = _
  rw [shapeCast_1ab_ab_apply]
  rfl

/-- The same for the second head's query half-block. -/
theorem pay15_apply (P : Vec Ideal S1x2048x64 .f32) (s : Fin 2048) (dd : Fin 64) :
    k0_pay15 (F := Ideal) P (ix2 s dd) = P (ix3 (0 : Fin 1) s dd) * Ideal.ofBits .f32 0x3E000000#32 := by
  show (shapeCast S2048x64 P shapeCasts_S1x2048x64_S2048x64) (ix2 s dd) * _ = _
  rw [shapeCast_1ab_ab_apply]
  rfl

/-- A key or value half-block at an entry is the loaded entry. -/
theorem pay3_apply (P : Vec Ideal S1x2048x64 .f32) (u : Fin 2048) (dd : Fin 64) :
    k0_pay3 (F := Ideal) P (ix2 u dd) = P (ix3 (0 : Fin 1) u dd) := by
  show (shapeCast S2048x64 P shapeCasts_S1x2048x64_S2048x64) (ix2 u dd) = _
  rw [shapeCast_1ab_ab_apply]

/-- The first head's value half-block at an entry. -/
theorem pay4_apply (P : Vec Ideal S1x2048x64 .f32) (u : Fin 2048) (dd : Fin 64) :
    k0_pay4 (F := Ideal) P (ix2 u dd) = P (ix3 (0 : Fin 1) u dd) := by
  show (shapeCast S2048x64 P shapeCasts_S1x2048x64_S2048x64) (ix2 u dd) = _
  rw [shapeCast_1ab_ab_apply]

/-- The second head's key half-block at an entry. -/
theorem pay16_apply (P : Vec Ideal S1x2048x64 .f32) (u : Fin 2048) (dd : Fin 64) :
    k0_pay16 (F := Ideal) P (ix2 u dd) = P (ix3 (0 : Fin 1) u dd) := by
  show (shapeCast S2048x64 P shapeCasts_S1x2048x64_S2048x64) (ix2 u dd) = _
  rw [shapeCast_1ab_ab_apply]

/-- The second head's value half-block at an entry. -/
theorem pay17_apply (P : Vec Ideal S1x2048x64 .f32) (u : Fin 2048) (dd : Fin 64) :
    k0_pay17 (F := Ideal) P (ix2 u dd) = P (ix3 (0 : Fin 1) u dd) := by
  show (shapeCast S2048x64 P shapeCasts_S1x2048x64_S2048x64) (ix2 u dd) = _
  rw [shapeCast_1ab_ab_apply]

/-- A block column below 64 lies in the head whose columns start at 0. -/
theorem bcol_left (jj : Fin 128) (dd : Fin 64) (h : jj.val < 64) :
    (⟨dd.val, by omega⟩ : Fin 128) = Cert.Attn.bcol jj dd :=
  Fin.ext (by show dd.val = jj.val / 64 * 64 + dd.val; omega)

/-- A block column from 64 on lies in the head whose columns start at 64. -/
theorem bcol_right (jj : Fin 128) (dd : Fin 64) (h : 64 ≤ jj.val) :
    (⟨64 + dd.val, by omega⟩ : Fin 128) = Cert.Attn.bcol jj dd :=
  Fin.ext (by show 64 + dd.val = jj.val / 64 * 64 + dd.val; have := jj.isLt; omega)

/-- The row and column of a block index, as an index of the two heads side by side. -/
theorem ix3_0_eq (a : Fin 1) (s : Fin 2048) (jj : Fin 128) :
    Cert.KernelIdeal.Value.ix3_0 (ix3 a s jj) = ix2 s jj := by
  funext b
  match b with
  | ⟨0, _⟩ => rfl
  | ⟨1, _⟩ => rfl

/-- An entry of the first head of the block: the scores and the value column are read in the left halves of the
    three input blocks, which are the columns of the head that the entry's column lies in. -/
theorem pair_left (x0 x1 x2 : Vec Ideal S1x2048x128 .f32) (s : Fin 2048) (jj : Fin 128) (h : jj.val < 64) :
    pairOut (F := Ideal) (k0_pay2 (View.ld x0 r0_0)) (k0_pay3 (View.ld x1 r0_0)) (k0_pay4 (View.ld x2 r0_0))
        (k0_pay15 (View.ld x0 r0_1)) (k0_pay16 (View.ld x1 r0_1)) (k0_pay17 (View.ld x2 r0_1)) (ix2 s jj)
      = Cert.Attn.blockK x0 x1 x2 (ix3 (0 : Fin 1) s jj) := by
  rw [pairOut_apply_left _ _ _ _ _ _ s jj ⟨jj.val, h⟩ rfl]
  show _ = Cert.Attn.avgK (fun u : Fin 2048 => ∑ dd : Fin 64,
      (x0 (ix3 (0 : Fin 1) s (Cert.Attn.bcol jj dd)) * Ideal.ofBits .f32 0x3E000000#32)
        * x1 (ix3 (0 : Fin 1) u (Cert.Attn.bcol jj dd)))
    (fun u : Fin 2048 => x2 (ix3 (0 : Fin 1) u jj))
  congr 1
  · funext u
    refine Finset.sum_congr rfl fun dd _ => ?_
    rw [pay2_apply, pay3_apply, ld_left, ld_left, bcol_left jj dd h]
  · funext u
    rw [pay4_apply, ld_left]

/-- An entry of the second head of the block: the same through the right halves, 64 columns further on. -/
theorem pair_right (x0 x1 x2 : Vec Ideal S1x2048x128 .f32) (s : Fin 2048) (jj : Fin 128) (h : 64 ≤ jj.val) :
    pairOut (F := Ideal) (k0_pay2 (View.ld x0 r0_0)) (k0_pay3 (View.ld x1 r0_0)) (k0_pay4 (View.ld x2 r0_0))
        (k0_pay15 (View.ld x0 r0_1)) (k0_pay16 (View.ld x1 r0_1)) (k0_pay17 (View.ld x2 r0_1)) (ix2 s jj)
      = Cert.Attn.blockK x0 x1 x2 (ix3 (0 : Fin 1) s jj) := by
  have hj : jj.val = 64 + (⟨jj.val - 64, by have := jj.isLt; omega⟩ : Fin 64).val := by
    show jj.val = 64 + (jj.val - 64); omega
  rw [pairOut_apply_right _ _ _ _ _ _ s jj ⟨jj.val - 64, by have := jj.isLt; omega⟩ hj]
  show _ = Cert.Attn.avgK (fun u : Fin 2048 => ∑ dd : Fin 64,
      (x0 (ix3 (0 : Fin 1) s (Cert.Attn.bcol jj dd)) * Ideal.ofBits .f32 0x3E000000#32)
        * x1 (ix3 (0 : Fin 1) u (Cert.Attn.bcol jj dd)))
    (fun u : Fin 2048 => x2 (ix3 (0 : Fin 1) u jj))
  congr 1
  · funext u
    refine Finset.sum_congr rfl fun dd _ => ?_
    rw [pay15_apply, pay16_apply, ld_right, ld_right, bcol_right jj dd h]
  · funext u
    rw [pay17_apply, ld_right]
    refine congrArg x2 (congrArg (ix3 (0 : Fin 1) u) (Fin.ext ?_))
    show 64 + (jj.val - 64) = jj.val
    omega

/-- The body's stores, read back, are `blockK` of the three input blocks. -/
theorem out0_3_eq (x0 x1 x2 : Vec Ideal S1x2048x128 .f32) :
    out0_3 (F := Ideal) x0 x1 x2 = Cert.Attn.blockK x0 x1 x2 := by
  funext y
  obtain ⟨a, s, jj, rfl⟩ : ∃ (a : Fin 1) (s : Fin 2048) (jj : Fin 128), y = ix3 a s jj :=
    ⟨y 0, y 1, y 2, eq_ix3 y⟩
  obtain rfl : a = 0 := Subsingleton.elim _ _
  unfold out0_3
  rw [Cert.KernelIdeal.Value.canon3_eq]
  refine (congrFun (payload_eq (View.ld x0 r0_0) (View.ld x1 r0_0) (View.ld x2 r0_0) (View.ld x0 r0_1) (View.ld x1 r0_1)
    (View.ld x2 r0_1)) (Cert.KernelIdeal.Value.ix3_0 (ix3 (0 : Fin 1) s jj))).trans ?_
  rw [ix3_0_eq]
  by_cases h : jj.val < 64
  · exact pair_left x0 x1 x2 s jj h
  · exact pair_right x0 x1 x2 s jj (by omega)

end Cert.KernelIdeal.Attn

end
-- ==== Proof.KernelValue.lean ====
/-
  From blocks to the whole array.  The kernel's grid has eight points; point `t` stages columns `128 t .. 128 t + 127`
  of `q`, `k` and `v` (all 2048 rows) and writes the same columns of the result.  A column's head lies inside its own
  block of 128 columns, so the block the body leaves (`blockK` of the three input blocks) is the restriction of the
  whole-array function `GK` to those columns; the eight blocks tile the array, so the array ends holding `GK`.
-/
import proofs.«151708_g44976897524301_cont_8to1_c_832_2_alg».proof.Proof.BlockValue
import proofs.«151708_g44976897524301_cont_8to1_c_832_2_alg».proof.Proof.Gen.KernelIdeal.Value
import Idealize.ShloMosaic.Lib.Pipeline.Value

noncomputable section

namespace Cert.Attn

open Idealize.ShloMosaic Idealize.ShloMosaic.ValueIdx

/-- A block of two heads is the restriction of the whole-array function: if the input blocks are columns
    `128 t .. 128 t + 127` of `q`, `k`, `v`, then `blockK` at block index `y` is `GK` at the array index with the same
    row and column `128 t + y 2` — the head's 64 columns are the same ones on both sides. -/
theorem blockK_eq_GK (q k v : A3.Idx → EReal) (x0 x1 x2 : B3.Idx → EReal) (t : ℕ)
    (h0 : ∀ (s : Fin 2048) (jj : Fin 128) (col : Fin 1024), col.val = 128 * t + jj.val → x0 (ix3 (0 : Fin 1) s jj) = q (ix3 (0 : Fin 1) s col))
    (h1 : ∀ (s : Fin 2048) (jj : Fin 128) (col : Fin 1024), col.val = 128 * t + jj.val → x1 (ix3 (0 : Fin 1) s jj) = k (ix3 (0 : Fin 1) s col))
    (h2 : ∀ (s : Fin 2048) (jj : Fin 128) (col : Fin 1024), col.val = 128 * t + jj.val → x2 (ix3 (0 : Fin 1) s jj) = v (ix3 (0 : Fin 1) s col))
    (y : B3.Idx) (i : A3.Idx) (hi1 : i 1 = y 1) (hi2 : (i 2).val = 128 * t + (y 2).val) :
    blockK x0 x1 x2 y = GK q k v i := by
  unfold blockK GK scoreK
  have hc : ∀ dd : Fin 64, (hcol (i 2) dd).val = 128 * t + (bcol (y 2) dd).val := fun dd => by
    have := (y 2).isLt; have := dd.isLt
    show (i 2).val / 64 * 64 + dd.val = 128 * t + ((y 2).val / 64 * 64 + dd.val)
    omega
  rw [hi1]
  congr 1
  · funext u
    refine Finset.sum_congr rfl fun dd _ => ?_
    have e0 := h0 (y 1) (bcol (y 2) dd) (hcol (i 2) dd) (hc dd)
    have e1 := h1 u (bcol (y 2) dd) (hcol (i 2) dd) (hc dd)
    exact congrArg₂ (· * ·) (congrArg (· * Ideal.ofBits .f32 0x3E000000#32) e0) e1
  · funext u
    exact h2 u (y 2) (i 2) hi2

end Cert.Attn

namespace Cert.KernelIdeal.AttnValue

open Idealize.ShloMosaic Idealize.ShloMosaic.TcCoe Idealize.ShloMosaic.ValueIdx Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The four index maps, decided over the eight grid points: batch block 0, row block 0, column block `t`. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 3) = 0 ∧ win0_2.index t (1 : Fin 3) = 0 ∧ win0_2.index t (2 : Fin 3) = t.val
    ∧ win0_3.index t (0 : Fin 3) = 0 ∧ win0_3.index t (1 : Fin 3) = 0 ∧ win0_3.index t (2 : Fin 3) = t.val :=
  (by decide +kernel : ∀ t : Fin grid0.N, _)

/-- Input window 0's block at point `t` is columns `128 t ..` of `q`. -/
theorem iblk0_read (c : Dev nD) (t : Fin cfg0.N) (s : Fin 2048) (jj : Fin 128) (col : Fin 1024) (hcol : col.val = 128 * t.val + jj.val) :
    iblk m c 0 t (ix3 (0 : Fin 1) s jj) = V m c main_arg0 (ix3 (0 : Fin 1) s col) := by
  obtain ⟨e0, e1, e2, -⟩ := idx_facts t
  show V m c main_arg0 (((cfg0.win 0).blk t).view.emb (ix3 (0 : Fin 1) s jj)) = V m c main_arg0 (ix3 (0 : Fin 1) s col)
  refine congrArg _ (funext fun a => Fin.ext ?_)
  match a with
  | ⟨0, _⟩ => show win0_0.index t (0 : Fin 3) * 1 + 1 * 0 = 0; omega
  | ⟨1, _⟩ => show win0_0.index t (1 : Fin 3) * 2048 + 1 * s.val = s.val; omega
  | ⟨2, _⟩ => show win0_0.index t (2 : Fin 3) * 128 + 1 * jj.val = col.val; omega

/-- Input window 1's block at point `t` is columns `128 t ..` of `k`. -/
theorem iblk1_read (c : Dev nD) (t : Fin cfg0.N) (s : Fin 2048) (jj : Fin 128) (col : Fin 1024) (hcol : col.val = 128 * t.val + jj.val) :
    iblk m c 1 t (ix3 (0 : Fin 1) s jj) = V m c main_arg1 (ix3 (0 : Fin 1) s col) := by
  obtain ⟨-, -, -, e0, e1, e2, -⟩ := idx_facts t
  show V m c main_arg1 (((cfg0.win 1).blk t).view.emb (ix3 (0 : Fin 1) s jj)) = V m c main_arg1 (ix3 (0 : Fin 1) s col)
  refine congrArg _ (funext fun a => Fin.ext ?_)
  match a with
  | ⟨0, _⟩ => show win0_1.index t (0 : Fin 3) * 1 + 1 * 0 = 0; omega
  | ⟨1, _⟩ => show win0_1.index t (1 : Fin 3) * 2048 + 1 * s.val = s.val; omega
  | ⟨2, _⟩ => show win0_1.index t (2 : Fin 3) * 128 + 1 * jj.val = col.val; omega

/-- Input window 2's block at point `t` is columns `128 t ..` of `v`. -/
theorem iblk2_read (c : Dev nD) (t : Fin cfg0.N) (s : Fin 2048) (jj : Fin 128) (col : Fin 1024) (hcol : col.val = 128 * t.val + jj.val) :
    iblk m c 2 t (ix3 (0 : Fin 1) s jj) = V m c main_arg2 (ix3 (0 : Fin 1) s col) := by
  obtain ⟨-, -, -, -, -, -, e0, e1, e2, -⟩ := idx_facts t
  show V m c main_arg2 (((cfg0.win 2).blk t).view.emb (ix3 (0 : Fin 1) s jj)) = V m c main_arg2 (ix3 (0 : Fin 1) s col)
  refine congrArg _ (funext fun a => Fin.ext ?_)
  match a with
  | ⟨0, _⟩ => show win0_2.index t (0 : Fin 3) * 1 + 1 * 0 = 0; omega
  | ⟨1, _⟩ => show win0_2.index t (1 : Fin 3) * 2048 + 1 * s.val = s.val; omega
  | ⟨2, _⟩ => show win0_2.index t (2 : Fin 3) * 128 + 1 * jj.val = col.val; omega

/-- What point `t` writes back is block `t` of `GK` of the arrays as the region finds them. -/
theorem flushed_eq (c : Dev nD) (t : Fin cfg0.N) :
    (dats m 0 c).flushed 3 t
      = ((cfg0.win 3).blk t).view.read (Elt Ideal) (Cert.Attn.GK (V m c main_arg0) (V m c main_arg1) (V m c main_arg2)) := by
  rw [flushed3, Cert.KernelIdeal.Attn.out0_3_eq]
  obtain ⟨-, -, -, -, -, -, -, -, -, e0, e1, e2⟩ := idx_facts t
  funext y
  show Cert.Attn.blockK (iblk m c 0 t) (iblk m c 1 t) (iblk m c 2 t) y
    = Cert.Attn.GK (V m c main_arg0) (V m c main_arg1) (V m c main_arg2) (((cfg0.win 3).blk t).view.emb y)
  refine Cert.Attn.blockK_eq_GK _ _ _ _ _ _ t.val (fun s jj col h => iblk0_read m c t s jj col h) (fun s jj col h => iblk1_read m c t s jj col h)
    (fun s jj col h => iblk2_read m c t s jj col h) y _ ?_ ?_
  · apply Fin.ext
    show win0_3.index t (1 : Fin 3) * 2048 + 1 * (y 1).val = (y 1).val
    omega
  · show win0_3.index t (2 : Fin 3) * 128 + 1 * (y 2).val = 128 * t.val + (y 2).val
    omega

/-- An index of the array is in point `t`'s block iff each coordinate is in the block's range on its axis. -/
theorem mem_blk (t : Fin cfg0.N) (i : S1x2048x1024.Idx) :
    i ∈ ((cfg0.win 3).blk t).view.set ↔ ∀ a : Fin 3, win0_3.index t a * S1x2048x128.size a ≤ (i a).val ∧ (i a).val < win0_3.index t a * S1x2048x128.size a + S1x2048x128.size a := by
  show i ∈ ((View.whole main_v0).slice (win0_3.rect t)).set ↔ _
  rw [View.set_slice_whole, Rect.mem_set_unit]
  exact Iff.rfl

/-- Every index of the result lies in the block of the point its column names: `t = column / 128`. -/
theorem cover (i : S1x2048x1024.Idx) : ∃ t : Fin cfg0.N, (cfg0.win 3).flush t = true ∧ i ∈ ((cfg0.win 3).blk t).view.set := by
  have hi0 : (i 0).val < 1 := (i 0).isLt
  have hi1 : (i 1).val < 2048 := (i 1).isLt
  have hi2 : (i 2).val < 1024 := (i 2).isLt
  let t : Fin cfg0.N := ⟨(i 2).val / 128, by show (i 2).val / 128 < 8; omega⟩
  have ht : t.val = (i 2).val / 128 := rfl
  obtain ⟨-, -, -, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- The result array after the run is `GK` of the three argument arrays. -/
theorem final (c : Dev nD) :
    (dats m 0 c).arrAt 3 cfg0.N
      = Cert.Attn.GK (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run with the result array named: it ends at `GK` of the arguments, the arguments unchanged. -/
theorem run : θ_run defs (onTc (τ := τ) (main (F := Ideal))) ⟨m, fun _ => 0, ρ⟩ fun r => ∀ c : Dev nD,
      r.2.mem ((c : Thread nD τ).loc main_v0)
        = Cert.Attn.GK (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.AttnValue

end
-- ==== Proof.RefValue.lean ====
/-
  The reference program's result, read one operation at a time down to the argument arrays: entry `(0, s, j)` is the
  softmax average in the second order of operations (`GR`): the reshapes and transposes only rename `(s, 64 n + d)`
  as `(n, s, d)` and back.
-/
import proofs.«151708_g44976897524301_cont_8to1_c_832_2_alg».proof.Proof.Gen.ReferenceIdeal.Read
import proofs.«151708_g44976897524301_cont_8to1_c_832_2_alg».proof.Proof.AttnDefs
import Idealize.ShloMosaic.PureOps.Reduce
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-- The head (block of 64 columns) that column `j` lies in. -/
def headOf (j : Fin 1024) : Fin 16 := ⟨j.val / 64, by have := j.isLt; omega⟩

/-- Entry `(0, n, s, dd)` of the transposed, reshaped query array is entry `(0, s, 64 n + dd)` of the query array. -/
theorem qidx (j : Fin 1024) (s u : Fin 2048) (dd : Fin 64) :
    idx_main_v0 (idx_main_v1 (lidx_main_v8 (ix4 (0 : Fin 1) (headOf j) s u) dd)) = ix3 (0 : Fin 1) s (Cert.Attn.hcol j dd) := by
  have hj := j.isLt; have hs := s.isLt; have hd := dd.isLt
  funext a
  apply Fin.ext
  match a with
  | ⟨0, _⟩ => rfl
  | ⟨1, _⟩ =>
    show (((0 * 2048 + s.val) * 16 + j.val / 64) * 64 + dd.val) / 1024 % 2048 = s.val
    omega
  | ⟨2, _⟩ =>
    show (((0 * 2048 + s.val) * 16 + j.val / 64) * 64 + dd.val) % 1024 = j.val / 64 * 64 + dd.val
    omega

/-- Entry `(0, n, u, dd)` of the transposed, reshaped key array is entry `(0, u, 64 n + dd)` of the key array. -/
theorem kidx (j : Fin 1024) (s u : Fin 2048) (dd : Fin 64) :
    idx_main_v2 (idx_main_v3 (ridx_main_v8 (ix4 (0 : Fin 1) (headOf j) s u) dd)) = ix3 (0 : Fin 1) u (Cert.Attn.hcol j dd) := by
  have hj := j.isLt; have hu := u.isLt; have hd := dd.isLt
  funext a
  apply Fin.ext
  match a with
  | ⟨0, _⟩ => rfl
  | ⟨1, _⟩ =>
    show (((0 * 2048 + u.val) * 16 + j.val / 64) * 64 + dd.val) / 1024 % 2048 = u.val
    omega
  | ⟨2, _⟩ =>
    show (((0 * 2048 + u.val) * 16 + j.val / 64) * 64 + dd.val) % 1024 = j.val / 64 * 64 + dd.val
    omega

/-- The scaled scores of one head, read down to the argument arrays: the dot product over the head's 64 columns
    times `1 / sqrt 64`. -/
theorem scores_at (x0 x1 : (⟨S1x2048x1024, .f32⟩ : BufTy).Contents (Elt Ideal)) (j : Fin 1024) (s u : Fin 2048) :
    val_main_v10 (F := Ideal) x0 x1 (ix4 (0 : Fin 1) (headOf j) s u) = Cert.Attn.scoreR x0 x1 s j u := by
  rw [val_main_v10_apply, val_main_v8_apply, val_main_v9_apply, val_main_v7_apply, val_main_cst_0_apply,
    val_main_v6_apply, val_main_cst_apply]
  simp only [Ideal.mulf_def, Ideal.hostDivf_def, Ideal.hostUnary_sqrt_def, Ideal.ofBits_def]
  unfold Cert.Attn.scoreR
  refine congrArg (· * _) (Finset.sum_congr rfl fun dd _ => ?_)
  rw [val_main_v1_apply, val_main_v0_apply, val_main_v3_apply, val_main_v2_apply, qidx, kidx]

/-- The index `(0, n, s)` with key row `k` put back on the reduced axis is `(0, n, s, k)`. -/
theorem lift_at (h : S1x16x2048x2048.Reduces [3] S1x16x2048) (n : Fin 16) (s : Fin 2048)
    (k : Fin (S1x16x2048x2048.size 3)) :
    h.lift (ix3 (0 : Fin 1) n s) k = ix4 (0 : Fin 1) n s (⟨k.val, k.isLt⟩ : Fin 2048) := by
  funext c; apply Fin.ext
  fin_cases c <;> rfl

/-- The constant `0xFF800000` is `-∞`. -/
theorem negInf_eq : Ideal.ofBits .f32 0xFF800000#32 = (⊥ : EReal) := by
  simp [Ideal.ofBits, Ideal.ieee]

/-- The row maximum: the fold of `max` from `-∞` over the key rows. -/
theorem rowmax_at (x0 x1 : (⟨S1x2048x1024, .f32⟩ : BufTy).Contents (Elt Ideal)) (n : Fin 16) (s : Fin 2048) :
    val_main_v11 (F := Ideal) x0 x1 (ix3 (0 : Fin 1) n s)
      = Cert.Attn.smax (fun u : Fin 2048 => val_main_v10 (F := Ideal) x0 x1 (ix4 (0 : Fin 1) n s u)) := by
  unfold val_main_v11 Cert.Attn.smax
  rw [Host.reduce_eq_fold_single FloatOps.maximumf _ _ _ (by decide : S1x16x2048x2048.Reduces [3] S1x16x2048) h_S_]
  have hf : (val_main_v10 (F := Ideal) x0 x1 ∘ (by decide : S1x16x2048x2048.Reduces [3] S1x16x2048).lift (ix3 (0 : Fin 1) n s))
      = fun u : Fin 2048 => val_main_v10 (F := Ideal) x0 x1 (ix4 (0 : Fin 1) n s u) :=
    funext fun k => congrArg (val_main_v10 (F := Ideal) x0 x1) (lift_at _ n s k)
  rw [hf, val_main_cst_1_apply, Ideal.ofBits_def, negInf_eq]
  rfl

/-- The subtracted shift: the row maximum taken once more against `-∞`. -/
theorem shift_at (x0 x1 : (⟨S1x2048x1024, .f32⟩ : BufTy).Contents (Elt Ideal)) (n : Fin 16) (s : Fin 2048) :
    val_main_v13 (F := Ideal) x0 x1 (ix3 (0 : Fin 1) n s)
      = max ⊥ (Cert.Attn.smax (fun u : Fin 2048 => val_main_v10 (F := Ideal) x0 x1 (ix4 (0 : Fin 1) n s u))) := by
  rw [val_main_v13_apply, val_main_v12_apply, val_main_cst_2_apply, rowmax_at, Ideal.maximumf_def, Ideal.ofBits_def,
    negInf_eq]

/-- The unnormalised weight of key row `u`: the exponential of its score less the shift. -/
theorem weight_at (x0 x1 : (⟨S1x2048x1024, .f32⟩ : BufTy).Contents (Elt Ideal)) (n : Fin 16) (s u : Fin 2048) :
    val_main_v17 (F := Ideal) x0 x1 (ix4 (0 : Fin 1) n s u)
      = Ideal.exp (val_main_v10 (F := Ideal) x0 x1 (ix4 (0 : Fin 1) n s u)
          - max ⊥ (Cert.Attn.smax (fun w : Fin 2048 => val_main_v10 (F := Ideal) x0 x1 (ix4 (0 : Fin 1) n s w)))) := by
  have hi : idx_main_v14 (idx_main_v15 (ix4 (0 : Fin 1) n s u)) = ix3 (0 : Fin 1) n s := by
    funext a; apply Fin.ext
    match a with
    | ⟨0, _⟩ => rfl
    | ⟨1, _⟩ => rfl
    | ⟨2, _⟩ => rfl
  rw [val_main_v17_apply, val_main_v16_apply, val_main_v15_apply, val_main_v14_apply, hi, shift_at,
    Ideal.hostUnary_exp_def, Ideal.subf_def]

/-- The normaliser: zero plus the sum of the weights over the key rows. -/
theorem norm_at (x0 x1 : (⟨S1x2048x1024, .f32⟩ : BufTy).Contents (Elt Ideal)) (n : Fin 16) (s : Fin 2048) :
    val_main_v18 (F := Ideal) x0 x1 (ix3 (0 : Fin 1) n s)
      = 0 + ∑ w : Fin 2048, val_main_v17 (F := Ideal) x0 x1 (ix4 (0 : Fin 1) n s w) := by
  rw [val_main_v18_apply, val_main_cst_3_apply, Ideal.ofBits_def, Ideal.ofBits_zero_f32]
  refine congrArg (0 + ·) (Finset.sum_congr rfl fun k _ => ?_)
  refine congrArg (val_main_v17 (F := Ideal) x0 x1) (funext fun a => Fin.ext ?_)
  match a with
  | ⟨0, _⟩ => rfl
  | ⟨1, _⟩ => rfl
  | ⟨2, _⟩ => rfl
  | ⟨3, _⟩ => rfl

/-- The normalised weight of key row `u`. -/
theorem prob_at (x0 x1 : (⟨S1x2048x1024, .f32⟩ : BufTy).Contents (Elt Ideal)) (n : Fin 16) (s u : Fin 2048) :
    val_main_v21 (F := Ideal) x0 x1 (ix4 (0 : Fin 1) n s u)
      = Ideal.div (val_main_v17 (F := Ideal) x0 x1 (ix4 (0 : Fin 1) n s u))
          (val_main_v18 (F := Ideal) x0 x1 (ix3 (0 : Fin 1) n s)) := by
  have hi : idx_main_v19 (idx_main_v20 (ix4 (0 : Fin 1) n s u)) = ix3 (0 : Fin 1) n s := by
    funext a; apply Fin.ext
    match a with
    | ⟨0, _⟩ => rfl
    | ⟨1, _⟩ => rfl
    | ⟨2, _⟩ => rfl
  rw [val_main_v21_apply, val_main_v20_apply, val_main_v19_apply, hi, Ideal.hostDivf_def]

/-- Output entry `(0, s, j)` sits at `(0, j / 64, s, ·)` of the weights: the final reshape and transpose only rename. -/
theorem widx (i : S1x2048x1024.Idx) (k : Fin 2048) :
    lidx_main_v22 (idx_main_v23 (idx_main_v24 i)) k = ix4 (0 : Fin 1) (headOf (i 2)) (i 1) k := by
  have h0 : (i 0).val < 1 := (i 0).isLt
  have h1 : (i 1).val < 2048 := (i 1).isLt
  have h2 : (i 2).val < 1024 := (i 2).isLt
  funext a
  apply Fin.ext
  match a with
  | ⟨0, _⟩ => rfl
  | ⟨1, _⟩ =>
    show (((i 0).val * 2048 + (i 1).val) * 1024 + (i 2).val) / 64 % 16 = (i 2).val / 64
    omega
  | ⟨2, _⟩ =>
    show (((i 0).val * 2048 + (i 1).val) * 1024 + (i 2).val) / 1024 % 2048 = (i 1).val
    omega
  | ⟨3, _⟩ => rfl

/-- The value entry multiplied with the weight of key row `k` for output entry `(0, s, j)` is `v (0, k, j)`. -/
theorem vidx (i : S1x2048x1024.Idx) (k : Fin 2048) :
    idx_main_v4 (idx_main_v5 (ridx_main_v22 (idx_main_v23 (idx_main_v24 i)) k)) = ix3 (0 : Fin 1) k (i 2) := by
  have h0 : (i 0).val < 1 := (i 0).isLt
  have h1 : (i 1).val < 2048 := (i 1).isLt
  have h2 : (i 2).val < 1024 := (i 2).isLt
  have hk := k.isLt
  funext a
  apply Fin.ext
  match a with
  | ⟨0, _⟩ => rfl
  | ⟨1, _⟩ =>
    show (((0 * 2048 + k.val) * 16 + (((i 0).val * 2048 + (i 1).val) * 1024 + (i 2).val) / 64 % 16) * 64
      + (((i 0).val * 2048 + (i 1).val) * 1024 + (i 2).val) % 64) / 1024 % 2048 = k.val
    omega
  | ⟨2, _⟩ =>
    show (((0 * 2048 + k.val) * 16 + (((i 0).val * 2048 + (i 1).val) * 1024 + (i 2).val) / 64 % 16) * 64
      + (((i 0).val * 2048 + (i 1).val) * 1024 + (i 2).val) % 64) % 1024 = (i 2).val
    omega

/-- The result entry: the weighted sum of the value column over the key rows. -/
theorem out_at (x0 x1 x2 : (⟨S1x2048x1024, .f32⟩ : BufTy).Contents (Elt Ideal)) (i : S1x2048x1024.Idx) :
    val_main_v24 (F := Ideal) x0 x1 x2 i
      = ∑ k : Fin 2048, val_main_v21 (F := Ideal) x0 x1 (ix4 (0 : Fin 1) (headOf (i 2)) (i 1) k)
          * x2 (ix3 (0 : Fin 1) k (i 2)) := by
  rw [val_main_v24_apply, val_main_v23_apply, val_main_v22_apply]
  refine Finset.sum_congr rfl fun k _ => ?_
  rw [val_main_v5_apply, val_main_v4_apply, widx, vidx]
  rfl

/-- The normalised weight of key row `u` in terms of the scores of query row `s` in the head of column `j`. -/
theorem prob_scores (x0 x1 : (⟨S1x2048x1024, .f32⟩ : BufTy).Contents (Elt Ideal)) (j : Fin 1024) (s u : Fin 2048) :
    val_main_v21 (F := Ideal) x0 x1 (ix4 (0 : Fin 1) (headOf j) s u)
      = Ideal.div (Ideal.exp (Cert.Attn.scoreR x0 x1 s j u - max ⊥ (Cert.Attn.smax (Cert.Attn.scoreR x0 x1 s j))))
          (0 + ∑ w : Fin 2048,
            Ideal.exp (Cert.Attn.scoreR x0 x1 s j w - max ⊥ (Cert.Attn.smax (Cert.Attn.scoreR x0 x1 s j)))) := by
  have hS : (fun w : Fin 2048 => val_main_v10 (F := Ideal) x0 x1 (ix4 (0 : Fin 1) (headOf j) s w))
      = Cert.Attn.scoreR x0 x1 s j := funext fun w => scores_at x0 x1 j s w
  rw [prob_at, norm_at]
  simp only [weight_at]
  rw [hS]
  simp only [scores_at]

/-- The reference's last stage, entry by entry. -/
theorem ref_at (x0 x1 x2 : (⟨S1x2048x1024, .f32⟩ : BufTy).Contents (Elt Ideal)) (i : S1x2048x1024.Idx) :
    val_main_v24 (F := Ideal) x0 x1 x2 i = Cert.Attn.GR x0 x1 x2 i := by
  rw [out_at]
  unfold Cert.Attn.GR Cert.Attn.avgR
  exact Finset.sum_congr rfl fun u _ =>
    congrArg (· * x2 (ix3 (0 : Fin 1) u (i 2))) (prob_scores x0 x1 (i 2) (i 1) u)

/-- The reference's last stage is `GR` of the three argument arrays. -/
theorem ref_eq (x0 x1 x2 : (⟨S1x2048x1024, .f32⟩ : BufTy).Contents (Elt Ideal)) :
    val_main_v24 (F := Ideal) x0 x1 x2 = Cert.Attn.GR x0 x1 x2 := by
  exact funext fun i => ref_at x0 x1 x2 i

end Cert.ReferenceIdeal.RefValue

end
-- ==== Proof.SoftmaxAvg.lean ====
/-
  The softmax average does not depend on where the normaliser is divided out.  With real scores over a nonempty
  index set the maximum is a real number, every weight `exp (score − max)` is a positive real and so is their sum;
  dividing the weighted sum of real values by that sum is then the weighted sum of the values with each weight
  divided first.
-/
import proofs.«151708_g44976897524301_cont_8to1_c_832_2_alg».proof.Proof.AttnDefs

noncomputable section

namespace Cert.Attn

open Idealize.ShloMosaic

namespace SoftmaxAvg

/-- The embedding of the reals into the extended reals carries a finite sum to the sum of the embedded terms. -/
theorem coe_finset_sum {ι : Type} [DecidableEq ι] (s : Finset ι) (f : ι → ℝ) :
    ((∑ u ∈ s, f u : ℝ) : EReal) = ∑ u ∈ s, (f u : EReal) := by
  induction s using Finset.induction_on with
  | empty => simp
  | insert a s ha ih => rw [Finset.sum_insert ha, Finset.sum_insert ha, EReal.coe_add, ih]

/-- The embedding of the reals into the extended reals is monotone, so it carries the maximum of two reals to the
    maximum of their images. -/
theorem coe_max_real (x y : ℝ) : ((max x y : ℝ) : EReal) = max (x : EReal) (y : EReal) :=
  EReal.coe_strictMono.monotone.map_max

/-- Over a nonempty finite set of real numbers, the fold of `max` starting from `-∞` is a real number: the first
    element absorbs `-∞`, and the maximum of two reals is real. -/
theorem fold_max_coe {ι : Type} [DecidableEq ι] (s : Finset ι) (f : ι → ℝ) :
    s.Nonempty → ∃ m : ℝ, s.fold max (⊥ : EReal) (fun u => (f u : EReal)) = (m : EReal) := by
  induction s using Finset.induction_on with
  | empty => intro h; exact absurd h Finset.not_nonempty_empty
  | insert a s ha ih =>
    intro _
    rw [Finset.fold_insert ha]
    rcases s.eq_empty_or_nonempty with hs | hs
    · subst hs
      exact ⟨f a, by rw [Finset.fold_empty]; exact max_eq_left bot_le⟩
    · obtain ⟨m, hm⟩ := ih hs
      exact ⟨max (f a) m, by rw [hm, coe_max_real]⟩

/-- The maximum of real scores over a nonempty index set is a real number. -/
theorem smax_coe {T : ℕ} (hT : 0 < T) (S' : Fin T → ℝ) :
    ∃ m : ℝ, smax (fun u => (S' u : EReal)) = (m : EReal) := by
  haveI : Nonempty (Fin T) := ⟨⟨0, hT⟩⟩
  exact fold_max_coe (Finset.univ : Finset (Fin T)) S' Finset.univ_nonempty

/-- Each weight is the real exponential of a real difference. -/
theorem exp_sub_coe (s m : ℝ) : Ideal.exp ((s : EReal) - (m : EReal)) = ((Real.exp (s - m) : ℝ) : EReal) := by
  rw [← EReal.coe_sub, Ideal.exp_coe]

/-- The real identity behind the statement: dividing a weighted sum by the normaliser is the same as dividing
    every weight first. -/
theorem real_avg {T : ℕ} (e v : Fin T → ℝ) (l : ℝ) :
    (∑ u, e u * v u) * (1 / l) = ∑ u, e u * (1 / l) * v u := by
  rw [Finset.sum_mul]
  exact Finset.sum_congr rfl (fun u _ => by ring)

end SoftmaxAvg

/-- For real scores and real values over a nonempty index set the two softmax averages agree. -/
theorem avgK_eq_avgR {T : ℕ} (hT : 0 < T) (S V : Fin T → EReal) (hS : ∀ u, ∃ r : ℝ, S u = (r : EReal))
    (hV : ∀ u, ∃ r : ℝ, V u = (r : EReal)) : avgK S V = avgR S V := by
  choose S' hS' using hS
  choose V' hV' using hV
  obtain rfl : S = fun u => (S' u : EReal) := funext hS'
  obtain rfl : V = fun u => (V' u : EReal) := funext hV'
  haveI : Nonempty (Fin T) := ⟨⟨0, hT⟩⟩
  obtain ⟨m, hm⟩ := SoftmaxAvg.smax_coe hT S'
  -- the normaliser is a positive real
  have hpos : 0 < ∑ u : Fin T, Real.exp (S' u - m) :=
    Finset.sum_pos (fun u _ => Real.exp_pos _) Finset.univ_nonempty
  have hb : max (⊥ : EReal) (m : EReal) = (m : EReal) := max_eq_right bot_le
  unfold avgK avgR
  rw [hm, hb]
  simp only [SoftmaxAvg.exp_sub_coe, zero_add, ← EReal.coe_mul, ← SoftmaxAvg.coe_finset_sum]
  rw [Ideal.div_coe hpos.ne']
  simp only [Ideal.div_coe hpos.ne', ← EReal.coe_mul, ← SoftmaxAvg.coe_finset_sum]
  rw [SoftmaxAvg.real_avg]

end Cert.Attn

end
-- ==== Proof.Softmax.lean ====
/-
  The two orders of operations agree on finite inputs.  With real entries every score is a real number, equal in both
  orders because a finite sum of real products may be scaled term by term or as a whole (and `1 / sqrt 64` is one
  eighth); the maximum of finitely many reals is real; every weight `exp (score − max)` is a positive real, so the
  normaliser is a positive real, and dividing the weighted sum by it is dividing each weight by it.
-/
import proofs.«151708_g44976897524301_cont_8to1_c_832_2_alg».proof.Proof.AttnDefs
import proofs.«151708_g44976897524301_cont_8to1_c_832_2_alg».proof.Proof.SoftmaxAvg

noncomputable section

namespace Cert.Attn

open Idealize.ShloMosaic Idealize.ShloMosaic.ValueIdx

/-- The pattern `0x3E000000` (exponent field 124, zero fraction) denotes `2 ^ (-3)`, one eighth. -/
theorem ofBits_eighth : Ideal.ofBits .f32 0x3E000000#32 = ((1 / 8 : ℝ) : EReal) := by
  simp [Ideal.ofBits, Ideal.ieee, -EReal.coe_mul]; norm_num

/-- The pattern `0x3F800000` (exponent field 127, zero fraction) denotes `1`. -/
theorem ofBits_one : Ideal.ofBits .f32 0x3F800000#32 = ((1 : ℝ) : EReal) := by
  simp [Ideal.ofBits, Ideal.ieee, -EReal.coe_mul]; norm_num

/-- The pattern `0x42800000` (exponent field 133, zero fraction) denotes `2 ^ 6`, sixty-four. -/
theorem ofBits_sixtyfour : Ideal.ofBits .f32 0x42800000#32 = ((64 : ℝ) : EReal) := by
  simp [Ideal.ofBits, Ideal.ieee, -EReal.coe_mul]; norm_num

/-- The square root of sixty-four is eight, since `8 * 8 = 64`. -/
theorem sqrt_sixtyfour : Real.sqrt 64 = 8 := by
  have h : (64 : ℝ) = 8 * 8 := by norm_num
  rw [h, Real.sqrt_mul_self (by norm_num)]

/-- The reference's scale `1 / sqrt 64` is one eighth: the square root is the real `8`, and dividing by a nonzero
    real is multiplying by its reciprocal. -/
theorem scale_eighth :
    Ideal.div (Ideal.ofBits .f32 0x3F800000#32) (Ideal.sqrt (Ideal.ofBits .f32 0x42800000#32))
      = ((1 / 8 : ℝ) : EReal) := by
  rw [ofBits_one, ofBits_sixtyfour, Ideal.sqrt_coe, if_neg (by norm_num), sqrt_sixtyfour,
    Ideal.div_coe (by norm_num : (8 : ℝ) ≠ 0), ← EReal.coe_mul, one_mul]

/-- The coercion of a finite sum of reals is the sum of the coercions: by induction on the index set, one
    summand at a time, the coercion being additive. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries the score of the first order is the real `(Σ q·k) / 8`: every summand `(q · ⅛) · k` is a real
    product, and the common factor comes out of the finite sum. -/
theorem scoreK_real (qr kr : A3.Idx → ℝ) (s : Fin 2048) (j : Fin 1024) (u : Fin 2048) :
    scoreK (fun i => (qr i : EReal)) (fun i => (kr i : EReal)) s j u
      = (((∑ dd : Fin 64, qr (ix3 (0 : Fin 1) s (hcol j dd)) * kr (ix3 (0 : Fin 1) u (hcol j dd))) * (1 / 8 : ℝ) : ℝ)
          : EReal) := by
  unfold scoreK
  rw [ofBits_eighth]
  simp only [← EReal.coe_mul]
  rw [← coe_finset_sum, Finset.sum_mul]
  congr 1
  apply Finset.sum_congr rfl
  intro dd _
  ring

/-- With real entries the score of the second order is the same real `(Σ q·k) / 8`. -/
theorem scoreR_real (qr kr : A3.Idx → ℝ) (s : Fin 2048) (j : Fin 1024) (u : Fin 2048) :
    scoreR (fun i => (qr i : EReal)) (fun i => (kr i : EReal)) s j u
      = (((∑ dd : Fin 64, qr (ix3 (0 : Fin 1) s (hcol j dd)) * kr (ix3 (0 : Fin 1) u (hcol j dd))) * (1 / 8 : ℝ) : ℝ)
          : EReal) := by
  unfold scoreR
  rw [scale_eighth]
  simp only [← EReal.coe_mul]
  rw [← coe_finset_sum, ← EReal.coe_mul]

/-- On arrays of real numbers the two orders of operations give the same output. -/
theorem GK_eq_GR (q k v : A3.Idx → EReal) (hq : ∀ i, ∃ r : ℝ, q i = (r : EReal)) (hk : ∀ i, ∃ r : ℝ, k i = (r : EReal))
    (hv : ∀ i, ∃ r : ℝ, v i = (r : EReal)) : GK q k v = GR q k v := by
  choose qr hqr using hq
  choose kr hkr using hk
  obtain rfl : q = fun i => (qr i : EReal) := funext hqr
  obtain rfl : k = fun i => (kr i : EReal) := funext hkr
  unfold GK GR
  funext i
  have hS : scoreK (fun i => (qr i : EReal)) (fun i => (kr i : EReal)) (i 1) (i 2)
      = scoreR (fun i => (qr i : EReal)) (fun i => (kr i : EReal)) (i 1) (i 2) := by
    funext u
    exact (scoreK_real qr kr (i 1) (i 2) u).trans (scoreR_real qr kr (i 1) (i 2) u).symm
  rw [hS]
  exact avgK_eq_avgR (by norm_num) _ _ (fun u => ⟨_, scoreR_real qr kr (i 1) (i 2) u⟩)
    (fun u => hv _)

end Cert.Attn

end
-- ==== Proof.Finite.lean ====
/-
  The precondition read entry by entry: it is the conjunction of three tests "every entry of the array has absolute
  value below +∞", and an extended real whose absolute value is below +∞ is a real number.
-/
import proofs.«151708_g44976897524301_cont_8to1_c_832_2_alg».proof.Proof.Gen.Pre_finite_inputs
import Idealize.ShloMosaic.Lib.ReduceAll
import Idealize.ShloMosaic.Lib.ValueIdx
import Idealize.ShloMosaic.PureOps.Ideal

noncomputable section

namespace Cert.Attn

open Idealize.ShloMosaic Idealize.ShloMosaic.ValueIdx

/-- The scalar shape has exactly one index. -/
private instance subsingleton_scalarIdx : Subsingleton Cert.Pre_finite_inputs.S_.Idx :=
  ⟨fun a b => funext fun d => d.elim0⟩

/-- The binary32 word `0x7F800000` denotes `+∞`. -/
private theorem ofBits_posInf : Ideal.ofBits .f32 0x7F800000#32 = (⊤ : EReal) := by
  simp [Ideal.ofBits, Ideal.ieee]

/-- An extended real whose absolute value `max x (-x)` is strictly below `+∞` is a real number:
    at `⊥` and at `⊤` the absolute value is `⊤` itself. -/
private theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One test "every entry of the array has absolute value below `+∞`", reduced by `and` over all three axes into one
    word: if that word is 1, every entry of `x` is a real number. -/
private theorem real_of_all (x : FVec Ideal Cert.Pre_finite_inputs.S1x2048x1024 .f32)
    (hb : Cert.Pre_finite_inputs.S_.BroadcastsInDim Cert.Pre_finite_inputs.S1x2048x1024
      (![] : Fin 0 → Fin Cert.Pre_finite_inputs.S1x2048x1024.rank))
    (hr : Cert.Pre_finite_inputs.S1x2048x1024.ReducesTo [0, 1, 2] Cert.Pre_finite_inputs.S_)
    (hu : 0 < Cert.Pre_finite_inputs.S_.numel)
    (e : Host.reduce IntOp.andi
        (cmpf .olt (Host.absf x)
          (broadcastInDim Cert.Pre_finite_inputs.S1x2048x1024 ![] hb
            (constant (F := Ideal) Cert.Pre_finite_inputs.S_ .f32 0x7F800000#32)))
        (constantI Cert.Pre_finite_inputs.S_ 1 1#1) hr hu ValueIdx.ix0 = 1#1)
    (i : Cert.Pre_finite_inputs.S1x2048x1024.Idx) : ∃ r : ℝ, x i = (r : EReal) := by
  have hi := Host.reduce_andi_all _ _ hr hu ValueIdx.ix0 e i
  refine real_of_abs_lt_top (x i) ?_
  rw [← ofBits_posInf]
  exact hi

/-- Under the precondition every entry of the three arrays is a real number. -/
theorem real_of_pre (x0 x1 x2 : FVec Ideal Cert.Pre_finite_inputs.S1x2048x1024 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  -- the vector `and` read at the one scalar index is the `and` of the two words
  change IntOp.andi (IntOp.andi _ _) _ = 1#1 at h0
  obtain ⟨h01, h2⟩ := IntOp.andi_eq_one.1 h0
  obtain ⟨h0', h1⟩ := IntOp.andi_eq_one.1 h01
  exact ⟨real_of_all x0 _ _ _ h0', real_of_all x1 _ _ _ h1, real_of_all x2 _ _ _ h2⟩

end Cert.Attn

end
-- ==== Proof.lean ====
/-
  Multi-head self-attention over f32[1, 2048, 1024] (16 heads of 64 columns): a fused kernel against the plain
  formulation, equal as extended reals on finite inputs.

  The kernel walks a grid of eight points, two heads (128 columns) per point.  For each head it scales the query
  columns by one eighth, and for each chunk of 256 query rows forms the scores against all 2048 keys, subtracts each
  row's maximum, exponentiates, multiplies the weights into the values and divides the result by the row sums.  The
  reference reshapes to heads, scales the full score tensor by `1 / sqrt 64`, applies softmax along the keys (each
  weight divided by the row sum first) and multiplies into the values.

  Index by index both are the softmax-weighted average of a value column: `GK` (the kernel's order of operations) and
  `GR` (the reference's), stated in Proof/AttnDefs.lean.  Proof/KernelValue.lean shows the kernel's result array is
  `GK` of the arguments (the body's block from Proof/BlockValue.lean and Proof/ChunkValue.lean; the eight blocks tile the
  array), Proof/RefValue.lean that the reference's result is `GR`.  On finite inputs (Proof/Finite.lean reads the
  precondition entry by entry) the two agree (Proof/Softmax.lean, Proof/SoftmaxAvg.lean): scaling before or after a finite sum of real
  products is the same number, `1 / sqrt 64` is one eighth, the weights are positive reals, and dividing a finite
  weighted sum by a positive real is dividing each weight.  The ideal pass rewrote nothing, so there is nothing to
  preserve beyond the program text itself.
-/
import proofs.«151708_g44976897524301_cont_8to1_c_832_2_alg».proof.Defs
import proofs.«151708_g44976897524301_cont_8to1_c_832_2_alg».proof.Proof.Gen.Kernel
import proofs.«151708_g44976897524301_cont_8to1_c_832_2_alg».proof.Proof.Gen.Kernel.Skeleton
import proofs.«151708_g44976897524301_cont_8to1_c_832_2_alg».proof.Proof.Gen.Kernel.Launch
import proofs.«151708_g44976897524301_cont_8to1_c_832_2_alg».proof.Proof.Gen.Kernel.Points
import proofs.«151708_g44976897524301_cont_8to1_c_832_2_alg».proof.Proof.Gen.Kernel.Frame
import proofs.«151708_g44976897524301_cont_8to1_c_832_2_alg».proof.Proof.Gen.KernelIdeal
import proofs.«151708_g44976897524301_cont_8to1_c_832_2_alg».proof.Proof.Gen.KernelIdeal.Skeleton
import proofs.«151708_g44976897524301_cont_8to1_c_832_2_alg».proof.Proof.Gen.KernelIdeal.Launch
import proofs.«151708_g44976897524301_cont_8to1_c_832_2_alg».proof.Proof.Gen.KernelIdeal.Points
import proofs.«151708_g44976897524301_cont_8to1_c_832_2_alg».proof.Proof.Gen.KernelIdeal.Frame
import proofs.«151708_g44976897524301_cont_8to1_c_832_2_alg».proof.Proof.Gen.ReferenceIdeal
import proofs.«151708_g44976897524301_cont_8to1_c_832_2_alg».proof.Proof.Gen.Pre_finite_inputs
import proofs.«151708_g44976897524301_cont_8to1_c_832_2_alg».proof.Proof.Gen.KernelIdeal.Value
import proofs.«151708_g44976897524301_cont_8to1_c_832_2_alg».proof.Proof.Gen.ReferenceIdeal.Run
import proofs.«151708_g44976897524301_cont_8to1_c_832_2_alg».proof.Proof.Gen.ReferenceIdeal.Read
import proofs.«151708_g44976897524301_cont_8to1_c_832_2_alg».proof.Proof.KernelValue
import proofs.«151708_g44976897524301_cont_8to1_c_832_2_alg».proof.Proof.RefValue
import proofs.«151708_g44976897524301_cont_8to1_c_832_2_alg».proof.Proof.Softmax
import proofs.«151708_g44976897524301_cont_8to1_c_832_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on `q`, `k`, `v`, all finite, the kernel ends at `GK` of them and the reference at `GR` of
    them, and on real entries `GK = GR`. -/
theorem algebraic : Cert.algebraic_KernelIdeal_ReferenceIdeal := by
  intro m ρ m' ρ' hpre hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq, (hagree c).1, (hagree c).2.1, (hagree c).2.2]
  obtain ⟨h0, h1, h2⟩ := Cert.Attn.real_of_pre _ _ _ (hpre c)
  exact (Cert.Attn.GK_eq_GR _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
